-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S1x2048 : Shape := ⟨2, ![1, 2048]⟩
abbrev S1024x2048 : Shape := ⟨2, ![1024, 2048]⟩
abbrev S2048 : Shape := ⟨1, ![2048]⟩
abbrev S_ : Shape := ⟨0, ![]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩

abbrev nBuf : Space → Nat
  | .hbm => 20
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x1, .f32⟩
  | .local _ .vmem, ⟨9, _⟩ => ⟨S512x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x2048_S1x2048_0_0 : ∀ a, (![0, 0] : Fin 2 → Nat) a + S1x2048.size a ≤ S1x2048.size a
  h_S1x2048 : 0 < S1x2048.numel
  inb_S1024x2048_S1024x2048_0_0 : ∀ a, (![0, 0] : Fin 2 → Nat) a + S1024x2048.size a ≤ S1024x2048.size a
  h_S1024x2048 : 0 < S1024x2048.numel
  shapeCasts_S1x2048_S1x2048 : S1x2048.ShapeCasts S1x2048
  reduces_S1024x2048_S2048 : S1024x2048.Reduces [0] S2048
  shapeCasts_S2048_S1x2048 : S2048.ShapeCasts S1x2048
  bcast_S_S1x2048 : S_.BroadcastsInDim S1x2048 (![] : Fin 0 → Fin S1x2048.rank)
  inb_S512x2048_S512x2048_0_0 : ∀ a, (![0, 0] : Fin 2 → Nat) a + S512x2048.size a ≤ S512x2048.size a
  h_S512x2048 : 0 < S512x2048.numel
  broadcasts_S1x2048_S512x2048 : S1x2048.Broadcasts S512x2048
  reduces_S512x2048_S512 : S512x2048.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reducesTo_S16384x1_S_d0_1 : S16384x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S16384x1.size a
  hwx1_3 : ∀ i : grid1.Coords, EltTy.bits .f32 = 32 ∨ (Rect.block (s := S16384x1) S512x1.size (cc1_transform_3 i) (hinb1_3 i)).WholeWords (EltTy.packing .f32)

variable [Facts₀]

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x2048.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S_ : Shape := ⟨0, ![]⟩
abbrev S2048 : Shape := ⟨1, ![2048]⟩
abbrev S1x2048 : Shape := ⟨2, ![1, 2048]⟩
abbrev S16384 : Shape := ⟨1, ![16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S2048, .f32⟩
  | .hbm, ⟨3, _⟩ => ⟨S_, .f32⟩
  | .hbm, ⟨4, _⟩ => ⟨S2048, .f32⟩
  | .hbm, ⟨5, _⟩ => ⟨S2048, .f32⟩
  | .hbm, ⟨6, _⟩ => ⟨S_, .i32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S2048, .f32⟩
  | .hbm, ⟨28, _⟩ => ⟨S2048, .f32⟩
  | .hbm, ⟨29, _⟩ => ⟨S2048, .f32⟩
  | .hbm, ⟨30, _⟩ => ⟨S1x2048, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_cst_0 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_cst_1 : Ref sig .tc := ⟨.hbm, 17, rfl⟩
abbrev main_call0_call0_v8 : Ref sig .tc := ⟨.hbm, 18, rfl⟩
abbrev main_call0_call0_cst_2 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_call0_cst_3 : Ref sig .tc := ⟨.hbm, 23, rfl⟩
abbrev main_call0_call0_v12 : Ref sig .tc := ⟨.hbm, 24, rfl⟩
abbrev main_call0_call0_cst_4 : Ref sig .tc := ⟨.hbm, 25, rfl⟩
abbrev main_call0_call0_call0_v0 : Ref sig .tc := ⟨.hbm, 26, rfl⟩
abbrev main_call0_call0_call0_v1 : Ref sig .tc := ⟨.hbm, 27, rfl⟩
abbrev main_call0_v0 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_cst_6 : Ref sig .tc := ⟨.hbm, 51, rfl⟩
abbrev main_v20 : Ref sig .tc := ⟨.hbm, 52, rfl⟩

abbrev nD : Nat := 1
abbrev τ : Topo := Topo.v7x

variable {F : FTy → Type} [FloatOps F]

class Facts₀ : Prop where
  reducesTo_S16384x2048_S2048_d0 : S16384x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S16384x2048_0_1 : S1x2048.BroadcastsInDim S16384x2048 (![0, 1] : Fin 2 → Fin S16384x2048.rank)
  reducesTo_S16384x2048_S16384_d1 : S16384x2048.ReducesTo [1] S16384
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Spec.lean ====
/-
  The mathematics both programs are compared through, stated over plain extended reals and plain index types; no
  program is imported here.

  For a batch w of 16384 rows and 2048 columns: the column sums colSum, the column sums of squares colSq, the
  column mean (colSum / 16384); the column variance in its two spellings, varK = colSq / 16384 - mean^2 (one pass)
  and varR = (sum of (w - mean)^2) / 16384 (two passes); the standardized entry z = (w - mu) / sigma; per row the
  mean over the pairs of columns pairMean = ((sum z)^2 - sum z^2) / (2048 * 2047); and the loss, the mean over the
  rows of |pairMean|, times one. The kernel computes kernelVal (through varK), the reference refVal (through varR).
-/
import Idealize.ShloMosaic.PureOps.Ideal
import Idealize.ShloMosaic.PureOps.Ideal.Laws
import Idealize.ShloMosaic.Lib.ValueIdx

noncomputable section

open scoped BigOperators

namespace Cert.Corr

open Idealize.ShloMosaic Idealize.ShloMosaic.ValueIdx

/-- The batch: 16384 rows, 2048 columns. -/
abbrev SW : Shape := ⟨2, ![16384, 2048]⟩

/-- The number of rows, as the float both programs divide by (the pattern of 16384.0). -/
def nB : EReal := Ideal.ofBits .f32 0x46800000#32
/-- The number of ordered column pairs 2048 * 2047, as the float both programs divide by (the pattern of 4192256.0). -/
def nPairs : EReal := Ideal.ofBits .f32 0x4A7FE000#32
/-- The regularizer's scale (the pattern of 1.0). -/
def scale : EReal := Ideal.ofBits .f32 0x3F800000#32

/-- The sum of column j over the batch. -/
def colSum (w : SW.Idx → EReal) (j : Fin 2048) : EReal := ∑ b : Fin 16384, w (ix2 b j)
/-- The sum of squares of column j over the batch. -/
def colSq (w : SW.Idx → EReal) (j : Fin 2048) : EReal := ∑ b : Fin 16384, w (ix2 b j) * w (ix2 b j)
/-- The mean of column j. -/
def mean (w : SW.Idx → EReal) (j : Fin 2048) : EReal := Ideal.div (colSum w j) nB
/-- The variance of column j, one pass: the mean of the squares minus the square of the mean. -/
def varK (w : SW.Idx → EReal) (j : Fin 2048) : EReal := Ideal.div (colSq w j) nB - mean w j * mean w j
/-- The variance of column j, two passes: the mean of the squared deviations from the mean. -/
def varR (w : SW.Idx → EReal) (j : Fin 2048) : EReal :=
  Ideal.div (∑ b : Fin 16384, (w (ix2 b j) - mean w j) * (w (ix2 b j) - mean w j)) nB
/-- Entry (b, j) standardized by a column mean mu and a column deviation sigma. -/
def z (w : SW.Idx → EReal) (μ σ : Fin 2048 → EReal) (b : Fin 16384) (j : Fin 2048) : EReal :=
  Ideal.div (w (ix2 b j) - μ j) (σ j)
/-- Row b's mean over the ordered column pairs of z_i z_j, by (sum z)^2 - sum z^2. -/
def pairMean (w : SW.Idx → EReal) (μ σ : Fin 2048 → EReal) (b : Fin 16384) : EReal :=
  Ideal.div ((∑ j : Fin 2048, z w μ σ b j) * (∑ j : Fin 2048, z w μ σ b j) - ∑ j : Fin 2048, z w μ σ b j * z w μ σ b j) nPairs
/-- The loss: the scale times the mean over the rows of the absolute value. -/
def loss (pm : Fin 16384 → EReal) : EReal := scale * Ideal.div (∑ b : Fin 16384, max (pm b) (-(pm b))) nB

/-- What the kernel computes of the batch. -/
def kernelVal (w : SW.Idx → EReal) : EReal := loss (pairMean w (mean w) fun j => Ideal.sqrt (varK w j))
/-- What the reference computes of the batch. -/
def refVal (w : SW.Idx → EReal) : EReal := loss (pairMean w (mean w) fun j => Ideal.sqrt (varR w j))

end Cert.Corr

end
-- ==== Proof.Stats.lean ====
/-
  The first region's value: after its sixteen points the two accumulators hold, column by column, the sum and the sum
  of squares of the batch over all 16384 rows.
-/
import proofs.«166574_j86096914415914_1_alg».proof.Proof.Gen.KernelIdeal.Frame
import proofs.«166574_j86096914415914_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Stats

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of every access of the body, as a constant function. -/
theorem hz : (![0, 0] : Fin 2 → Nat) = fun _ => 0 := funext fun a => by fin_cases a <;> rfl

section Pieces

variable {F : FTy → Type} [FloatOps F]

/-- Away from the first point the first accumulator is left at its update: the old contents plus the block's column
    sums. -/
theorem out_B_1 (c : Dev nD) (i : grid0.Coords) (a1 : Memref sig .tc .vmem S1024x2048 .f32) (h1 : a1.IsWhole)
    (a2 : Memref sig .tc .vmem S1x2048 .f32) (h2 : a2.IsWhole) (a3 : Memref sig .tc .vmem S1x2048 .f32) (h3 : a3.IsWhole)
    (hc : ¬cond0_0 i) (x : Vec F S1024x2048 .f32) (xo1 xo2 : Vec F S1x2048 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S1024x2048) hz,
    View.ld_unit_zero (S := S1x2048) hz]

/-- Away from the first point the second accumulator is left at its update: the old contents plus the block's column
    sums of squares. -/
theorem out_B_2 (c : Dev nD) (i : grid0.Coords) (a1 : Memref sig .tc .vmem S1024x2048 .f32) (h1 : a1.IsWhole)
    (a2 : Memref sig .tc .vmem S1x2048 .f32) (h2 : a2.IsWhole) (a3 : Memref sig .tc .vmem S1x2048 .f32) (h3 : a3.IsWhole)
    (hc : ¬cond0_0 i) (x : Vec F S1024x2048 .f32) (xo1 xo2 : Vec F S1x2048 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S1024x2048) hz,
    View.ld_unit_zero (S := S1x2048) hz]

/-- At the first point the first accumulator is reset to the zero row, read back, and left at the zero row's
    update. -/
theorem out_A_1 (c : Dev nD) (i : grid0.Coords) (a1 : Memref sig .tc .vmem S1024x2048 .f32) (h1 : a1.IsWhole)
    (a2 : Memref sig .tc .vmem S1x2048 .f32) (h2 : a2.IsWhole) (a3 : Memref sig .tc .vmem S1x2048 .f32) (h3 : a3.IsWhole)
    (hc : cond0_0 i) (x : Vec F S1024x2048 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x2048) hz, View.readCov_unit_zero (S := S1x2048) _ hz]
  simp only [View.readAt_eq_ld, h1.read_unread, View.ld_unit_zero (S := S1024x2048) hz]

/-- At the first point the second accumulator likewise: the zero row's update by the squares. -/
theorem out_A_2 (c : Dev nD) (i : grid0.Coords) (a1 : Memref sig .tc .vmem S1024x2048 .f32) (h1 : a1.IsWhole)
    (a2 : Memref sig .tc .vmem S1x2048 .f32) (h2 : a2.IsWhole) (a3 : Memref sig .tc .vmem S1x2048 .f32) (h3 : a3.IsWhole)
    (hc : cond0_0 i) (x : Vec F S1024x2048 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x2048) hz, View.readCov_unit_zero (S := S1x2048) _ hz]
  simp only [View.readAt_eq_ld, h1.read_unread, View.ld_unit_zero (S := S1024x2048) hz]

end Pieces

section Payloads

/-- The zero row reads zero everywhere. -/
theorem pay1_apply (u : Fin 1) (j : Fin 2048) : k0_pay1 (F := Ideal) (ix2 u j) = 0 := by
  unfold k0_pay1
  exact Ideal.ofBits_zero_f32

theorem pay2_apply (u : Fin 1) (j : Fin 2048) : k0_pay2 (F := Ideal) (ix2 u j) = 0 := by
  unfold k0_pay2
  exact Ideal.ofBits_zero_f32

/-- A column reduction of a 1024 x 2048 block, recast as a one-row array, read at column j: the sum over the block's
    rows of its entries in column j. -/
theorem colReduce_apply (y : FVec Ideal S1024x2048 .f32) (u : Fin 1) (j : Fin 2048) :
    shapeCast S1x2048 (multiReduction (F := Ideal) .add [0] S2048 y 0x00000000#32 reduces_S1024x2048_S2048 (.inl rfl) rfl)
      shapeCasts_S2048_S1x2048 (ix2 u j) = ∑ r : Fin 1024, y (ix2 r j) := by
  refine (shapeCast_apply _ _ (ix2 u j) (ix1 j) ?_).trans ?_
  · have hu : u.val = 0 := by omega
    rw [Shape.rowMajor_val_two, Shape.rowMajor_val_one]
    show j.val = u.val * 2048 + j.val
    rw [hu, Nat.zero_mul, Nat.zero_add]
  refine (Ideal.multiReduction_add_single y 0x00000000#32 reduces_S1024x2048_S2048 (.inl rfl) rfl (ix1 j)).trans ?_
  refine Finset.sum_congr rfl fun r _ => congrArg y ?_
  funext a
  match a with
  | ⟨0, _⟩ => rfl
  | ⟨1, _⟩ => rfl

/-- The first update read at column j: the old entry plus the sum of the block's column j over its 1024 rows. -/
theorem pay3_apply (x : Vec Ideal S1024x2048 .f32) (acc : Vec Ideal S1x2048 .f32) (u : Fin 1) (j : Fin 2048) :
    k0_pay3 (F := Ideal) x acc (ix2 u j) = acc (ix2 u j) + ∑ r : Fin 1024, x (ix2 r j) := by
  unfold k0_pay3
  dsimp only
  refine (addf_apply _ _ _).trans ?_
  exact congrArg₂ (· + ·) (congrFun (shapeCast_self acc _) (ix2 u j)) (colReduce_apply x u j)

/-- The second update read at column j: the old entry plus the sum of the squares of the block's column j. -/
theorem pay4_apply (x : Vec Ideal S1024x2048 .f32) (acc : Vec Ideal S1x2048 .f32) (u : Fin 1) (j : Fin 2048) :
    k0_pay4 (F := Ideal) x acc (ix2 u j) = acc (ix2 u j) + ∑ r : Fin 1024, x (ix2 r j) * x (ix2 r j) := by
  unfold k0_pay4
  dsimp only
  refine (addf_apply _ _ _).trans ?_
  refine congrArg₂ (· + ·) (congrFun (shapeCast_self acc _) (ix2 u j)) ?_
  refine (colReduce_apply (mulf x x) u j).trans ?_
  exact Finset.sum_congr rfl fun r _ => mulf_apply x x (ix2 r j)

end Payloads

section Sums

/-- Row b of the batch at column j, for a natural row number (zero past the last row). -/
def rowAt (w : Vec Ideal S16384x2048 .f32) (b : ℕ) (j : Fin 2048) : EReal :=
  if h : b < 16384 then w (ix2 ⟨b, h⟩ j) else 0

/-- The sum over the first 1024 k rows, plus the sum over a block holding rows 1024 k .. 1024 k + 1023, is the sum
    over the first 1024 (k + 1) rows. -/
theorem sum_step (f : ℕ → EReal) (k : ℕ) (g : Fin 1024 → EReal) (hg : ∀ r : Fin 1024, g r = f (1024 * k + r.val)) :
    ∑ b ∈ Finset.range (1024 * k), f b + ∑ r : Fin 1024, g r = ∑ b ∈ Finset.range (1024 * (k + 1)), f b := by
  rw [show 1024 * (k + 1) = 1024 * k + 1024 from by ring, Finset.sum_range_add,
    ← Fin.sum_univ_eq_sum_range (fun x => f (1024 * k + x)) 1024]
  exact congrArg₂ (· + ·) rfl (Finset.sum_congr rfl fun r _ => hg r)

/-- The first block alone. -/
theorem sum_first (f : ℕ → EReal) (g : Fin 1024 → EReal) (hg : ∀ r : Fin 1024, g r = f (1024 * 0 + r.val)) :
    0 + ∑ r : Fin 1024, g r = ∑ b ∈ Finset.range (1024 * (0 + 1)), f b := by
  have e := sum_step f 0 g hg
  rw [Nat.mul_zero, Finset.sum_range_zero] at e
  exact e

/-- All 16384 rows by natural row number are all rows. -/
theorem sum_all (w : Vec Ideal S16384x2048 .f32) (j : Fin 2048) (φ : EReal → EReal) :
    ∑ b ∈ Finset.range (1024 * (15 + 1)), φ (rowAt w b j) = ∑ b : Fin 16384, φ (w (ix2 b j)) := by
  rw [show 1024 * (15 + 1) = 16384 from rfl, ← Fin.sum_univ_eq_sum_range (fun b => φ (rowAt w b j)) 16384]
  refine Finset.sum_congr rfl fun b _ => ?_
  unfold rowAt
  rw [dif_pos b.isLt]

end Sums

section Blocks

/-- The row block the first window shows at point t, and the batch, at their literal types. -/
abbrev xblk (c : Dev nD) (t : Fin cfg0.N) : Vec Ideal S1024x2048 .f32 := iblk0 V c 0 t
abbrev xarr (c : Dev nD) : Vec Ideal S16384x2048 .f32 := V c main_arg0

/-- Entry (r, j) of block t is entry (1024 t + r, j) of the batch. -/
theorem xblk_apply (c : Dev nD) (t : Fin cfg0.N) (r : Fin 1024) (j : Fin 2048) :
    xblk V c t (ix2 r j) = rowAt (xarr V c) (1024 * t.val + r.val) j := by
  have hN : cfg0.N = 16 := N_0
  have ht : t.val < 16 := lt_of_lt_of_eq t.isLt hN
  have hb : 1024 * t.val + r.val < 16384 := by have := r.isLt; omega
  have hi : win0_0.index t 0 = t.val ∧ win0_0.index t 1 = 0 := by
    rcases fin_N0 t with rfl | rfl | rfl | rfl | rfl | rfl | rfl | rfl | rfl | rfl | rfl | rfl | rfl | rfl | rfl | rfl <;> decide
  unfold rowAt
  rw [dif_pos hb]
  show iblk0 V c 0 t (ix2 r j) = V c main_arg0 _
  unfold iblk0
  rw [View.read_apply]
  show V c main_arg0 _ = V c main_arg0 _
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * j.val = j.val; rw [hi.2]; omega

end Blocks

section Run

/-- After point n the two accumulators hold, at column j, the sum and the sum of squares of column j over the first
    1024 (n + 1) rows of the batch: at the first point the reset makes the old contents zero, at every later point
    the point before left the sums over the rows before this block. -/
theorem outsAt_inv (c : Dev nD) : ∀ (n : ℕ) (h : n < cfg0.N) (u : Fin 1) (j : Fin 2048),
    (outsAt0 V c n h).1 (ix2 u j) = ∑ b ∈ Finset.range (1024 * (n + 1)), rowAt (xarr V c) b j
    ∧ (outsAt0 V c n h).2 (ix2 u j) = ∑ b ∈ Finset.range (1024 * (n + 1)), rowAt (xarr V c) b j * rowAt (xarr V c) b j
  | 0, h => fun u j => by
    rw [outsAt0_A V c ⟨0, h⟩ rfl]
    dsimp only
    constructor
    · refine (congrFun (out_A_1 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr rfl) (xblk V c ⟨0, h⟩)) (ix2 u j)).trans ?_
      refine (pay3_apply (xblk V c ⟨0, h⟩) (k0_pay1 (F := Ideal)) u j).trans ?_
      rw [pay1_apply]
      exact sum_first (fun b => rowAt (xarr V c) b j) (fun r => xblk V c ⟨0, h⟩ (ix2 r j)) fun r => xblk_apply V c ⟨0, h⟩ r j
    · refine (congrFun (out_A_2 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr rfl) (xblk V c ⟨0, h⟩)) (ix2 u j)).trans ?_
      refine (pay4_apply (xblk V c ⟨0, h⟩) (k0_pay2 (F := Ideal)) u j).trans ?_
      rw [pay2_apply]
      exact sum_first (fun b => rowAt (xarr V c) b j * rowAt (xarr V c) b j)
        (fun r => xblk V c ⟨0, h⟩ (ix2 r j) * xblk V c ⟨0, h⟩ (ix2 r j)) fun r =>
          congrArg₂ (· * ·) (xblk_apply V c ⟨0, h⟩ r j) (xblk_apply V c ⟨0, h⟩ r j)
  | n + 1, h => fun u j => by
    have hN : cfg0.N = 16 := N_0
    have hB : ¬(⟨n + 1, h⟩ : Fin cfg0.N).val % 16 = 0 := by dsimp only; omega
    have ih := outsAt_inv c n (Nat.lt_of_succ_lt h) u j
    rw [outsAt0_B V c ⟨n + 1, h⟩ hB]
    dsimp only
    constructor
    · refine (congrFun (out_B_1 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh)) (xblk V c ⟨n + 1, h⟩)
        (outsAt0 V c n (Nat.lt_of_succ_lt h)).1 (outsAt0 V c n (Nat.lt_of_succ_lt h)).2) (ix2 u j)).trans ?_
      refine (pay3_apply (xblk V c ⟨n + 1, h⟩) (outsAt0 V c n (Nat.lt_of_succ_lt h)).1 u j).trans ?_
      rw [ih.1]
      exact sum_step (fun b => rowAt (xarr V c) b j) (n + 1) (fun r => xblk V c ⟨n + 1, h⟩ (ix2 r j))
        fun r => xblk_apply V c ⟨n + 1, h⟩ r j
    · refine (congrFun (out_B_2 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh)) (xblk V c ⟨n + 1, h⟩)
        (outsAt0 V c n (Nat.lt_of_succ_lt h)).1 (outsAt0 V c n (Nat.lt_of_succ_lt h)).2) (ix2 u j)).trans ?_
      refine (pay4_apply (xblk V c ⟨n + 1, h⟩) (outsAt0 V c n (Nat.lt_of_succ_lt h)).2 u j).trans ?_
      rw [ih.2]
      exact sum_step (fun b => rowAt (xarr V c) b j * rowAt (xarr V c) b j) (n + 1)
        (fun r => xblk V c ⟨n + 1, h⟩ (ix2 r j) * xblk V c ⟨n + 1, h⟩ (ix2 r j)) fun r =>
          congrArg₂ (· * ·) (xblk_apply V c ⟨n + 1, h⟩ r j) (xblk_apply V c ⟨n + 1, h⟩ r j)

end Run

section Final

/-- What the two arrays are to hold: the column sums and the column sums of squares of the batch. -/
abbrev G1 (c : Dev nD) : Buf (Elt Ideal) ((c : Thread nD τ).loc main_v0_0) :=
  fun i => Cert.Corr.colSum (V c main_arg0) (i 1)
abbrev G2 (c : Dev nD) : Buf (Elt Ideal) ((c : Thread nD τ).loc main_v0_1) :=
  fun i => Cert.Corr.colSq (V c main_arg0) (i 1)

/-- After the last point the first accumulator holds the column sums: the first 1024 * 16 rows are all the rows. -/
theorem acc1_last (c : Dev nD) (t : Fin cfg0.N) (ht : t.val = 15) : (outsAt0 V c t.val t.isLt).1 = G1 V c := by
  obtain ⟨n, hn⟩ := t
  dsimp only at ht
  subst ht
  funext i
  obtain ⟨u, j, rfl⟩ : ∃ (u : Fin 1) (j : Fin 2048), i = ix2 u j := ⟨i 0, i 1, eq_ix2 i⟩
  refine ((outsAt_inv V c 15 hn u j).1).trans ?_
  exact sum_all (xarr V c) j (fun x => x)

/-- After the last point the second accumulator holds the column sums of squares. -/
theorem acc2_last (c : Dev nD) (t : Fin cfg0.N) (ht : t.val = 15) : (outsAt0 V c t.val t.isLt).2 = G2 V c := by
  obtain ⟨n, hn⟩ := t
  dsimp only at ht
  subst ht
  funext i
  obtain ⟨u, j, rfl⟩ : ∃ (u : Fin 1) (j : Fin 2048), i = ix2 u j := ⟨i 0, i 1, eq_ix2 i⟩
  refine ((outsAt_inv V c 15 hn u j).2).trans ?_
  exact sum_all (xarr V c) j (fun x => x * x)

/-- Only the last point writes the first accumulator back, and its block, at zero offsets with the array's own
    sizes, is the whole array. -/
theorem flushed_1 (c : Dev nD) (t : Fin cfg0.N) (hf : (cfg0.win 1).flush t = true) :
    (dat0 (F := Ideal) V c).flushed 1 t = ((cfg0.win 1).blk t).view.read (Elt Ideal) (G1 V c) := by
  have hN : cfg0.N = 16 := N_0
  have h15 : t.val = 15 := by have := (flush0_1 t).mp hf; have := lt_of_lt_of_eq t.isLt hN; omega
  obtain rfl : t = t0_15 := Fin.ext h15
  show (cfg0.win 1).cut (grid0.coords t0_15) ((dat0 (F := Ideal) V c).after 1 t0_15) = _
  rw [after0_1, acc1_last V c t0_15 rfl]
  have hz' : (fun a => win0_1.index t0_15 a * main_v0_0.ty.shape.size a) = fun _ => 0 :=
    funext fun a => by fin_cases a <;> decide
  exact (Memref.read_access_unit_zero (Elt Ideal) main_v0_0 hz' (fun a => by rw [congrFun hz' a]; simp) (G1 V c)).symm

theorem flushed_2 (c : Dev nD) (t : Fin cfg0.N) (hf : (cfg0.win 2).flush t = true) :
    (dat0 (F := Ideal) V c).flushed 2 t = ((cfg0.win 2).blk t).view.read (Elt Ideal) (G2 V c) := by
  have hN : cfg0.N = 16 := N_0
  have h15 : t.val = 15 := by have := (flush0_2 t).mp hf; have := lt_of_lt_of_eq t.isLt hN; omega
  obtain rfl : t = t0_15 := Fin.ext h15
  show (cfg0.win 2).cut (grid0.coords t0_15) ((dat0 (F := Ideal) V c).after 2 t0_15) = _
  rw [after0_2, acc2_last V c t0_15 rfl]
  have hz' : (fun a => win0_2.index t0_15 a * main_v0_1.ty.shape.size a) = fun _ => 0 :=
    funext fun a => by fin_cases a <;> decide
  exact (Memref.read_access_unit_zero (Elt Ideal) main_v0_1 hz' (fun a => by rw [congrFun hz' a]; simp) (G2 V c)).symm

/-- Every index of the first accumulator's array lies in the block the last point writes back. -/
theorem cover_1 (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_15, (flush0_1 t0_15).mpr rfl, ?_⟩
  show i ∈ ((View.whole main_v0_0).slice (win0_1.rect t0_15)).set
  rw [View.set_slice_whole, Rect.mem_set_unit]
  have hoff : ∀ a, win0_1.index t0_15 a * win0_1.size a = 0 := by decide +kernel
  have hsz : ∀ a, win0_1.xsize (grid0.coords t0_15) a = S1x2048.size a := by decide +kernel
  intro a
  show win0_1.index t0_15 a * win0_1.size a ≤ (i a : Nat)
    ∧ (i a : Nat) < win0_1.index t0_15 a * win0_1.size a + win0_1.xsize (grid0.coords t0_15) a
  rw [hoff a, hsz a, Nat.zero_add]
  exact ⟨Nat.zero_le _, (i a).isLt⟩

theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t0_15, (flush0_2 t0_15).mpr rfl, ?_⟩
  show i ∈ ((View.whole main_v0_1).slice (win0_2.rect t0_15)).set
  rw [View.set_slice_whole, Rect.mem_set_unit]
  have hoff : ∀ a, win0_2.index t0_15 a * win0_2.size a = 0 := by decide +kernel
  have hsz : ∀ a, win0_2.xsize (grid0.coords t0_15) a = S1x2048.size a := by decide +kernel
  intro a
  show win0_2.index t0_15 a * win0_2.size a ≤ (i a : Nat)
    ∧ (i a : Nat) < win0_2.index t0_15 a * win0_2.size a + win0_2.xsize (grid0.coords t0_15) a
  rw [hoff a, hsz a, Nat.zero_add]
  exact ⟨Nat.zero_le _, (i a).isLt⟩

end Final

/-- After the last point the first accumulator's array holds the column sums of the batch as the region found it. -/
theorem colSum_final (c : Dev nD) :
    (dat0 (F := Ideal) V c).arrAt 1 cfg0.N = fun i => Cert.Corr.colSum (V c main_arg0) (i 1) :=
  (dat0 (F := Ideal) V c).arrAt_eq_of_cover 1 (G1 V c) (flushed_1 V c) (cover_1 c)

/-- After the last point the second accumulator's array holds the column sums of squares. -/
theorem colSq_final (c : Dev nD) :
    (dat0 (F := Ideal) V c).arrAt 2 cfg0.N = fun i => Cert.Corr.colSq (V c main_arg0) (i 1) :=
  (dat0 (F := Ideal) V c).arrAt_eq_of_cover 2 (G2 V c) (flushed_2 V c) (cover_2 c)

end Cert.KernelIdeal.Stats

end
-- ==== Proof.RowPair.lean ====
/-
  The second region's value: its result array holds, row by row, the mean over the column pairs of the batch
  standardized by the mean row and the deviation row the region was given.
-/
import proofs.«166574_j86096914415914_1_alg».proof.Proof.Gen.KernelIdeal.Frame
import proofs.«166574_j86096914415914_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.RowPair

open Cert.KernelIdeal Cert.KernelIdeal.Gen Idealize.ShloMosaic Idealize.ShloMosaic.TcCoe Idealize.SL.Sem Idealize.ShloMosaic.ValueIdx
open Idealize.ShloMosaic.Pipeline (Dat)

/-! ## The body's arithmetic at an index -/

/-- A vector of length a cast to a column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The standardized entry: the block's entry minus the mean row's, over the deviation row's. -/
theorem std_apply (x0 : FVec Ideal S512x2048 .f32) (x1 x2 : FVec Ideal S1x2048 .f32)
    (h1 : S1x2048.ShapeCasts S1x2048) (hb : S1x2048.Broadcasts S512x2048) (r : Fin 512) (j : Fin 2048) :
    divf (subf x0 (broadcastTo S512x2048 (shapeCast S1x2048 x1 h1) hb)) (broadcastTo S512x2048 (shapeCast S1x2048 x2 h1) hb) (ix2 r j)
      = Ideal.div (x0 (ix2 r j) - x1 (ix2 0 j)) (x2 (ix2 0 j)) := by
  rw [shapeCast_self, shapeCast_self]
  show Ideal.div (x0 (ix2 r j) - broadcastTo S512x2048 x1 hb (ix2 r j)) (broadcastTo S512x2048 x2 hb (ix2 r j)) = _
  rw [broadcastTo_1b_ab_apply, broadcastTo_1b_ab_apply]

/-- The sum along the columns, read at row r. -/
theorem rowSum_apply (src : FVec Ideal S512x2048 .f32) (h : S512x2048.Reduces [1] S512) (hφ : FKind.Formats .f32)
    (hacc : (0x00000000#32 : BitVec 32) = FKind.add.neutral .f32 hφ) (r : Fin 512) :
    multiReduction (F := Ideal) .add [1] S512 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src ?_
  funext a
  apply Fin.ext
  match a with
  | ⟨0, _⟩ => rfl
  | ⟨1, _⟩ => rfl

/-- What the body stores at row r of its block: with z the row's standardized entries, the square of their sum less
    the sum of their squares, over the number of ordered column pairs. -/
theorem pay_apply (x0 : Vec Ideal S512x2048 .f32) (x1 x2 : Vec Ideal S1x2048 .f32) (r : Fin 512) :
    k1_pay1 (F := Ideal) x0 x1 x2 (ix2 r (0 : Fin 1))
      = Ideal.div ((∑ j : Fin 2048, Ideal.div (x0 (ix2 r j) - x1 (ix2 0 j)) (x2 (ix2 0 j)))
            * (∑ j : Fin 2048, Ideal.div (x0 (ix2 r j) - x1 (ix2 0 j)) (x2 (ix2 0 j)))
          - ∑ j : Fin 2048, Ideal.div (x0 (ix2 r j) - x1 (ix2 0 j)) (x2 (ix2 0 j))
              * Ideal.div (x0 (ix2 r j) - x1 (ix2 0 j)) (x2 (ix2 0 j)))
        (Ideal.ofBits .f32 0x4A7FE000#32) := by
  unfold k1_pay1
  refine congrArg₂ Ideal.div (congrArg₂ (· - ·) (congrArg₂ (· * ·) ?_ ?_) ?_) rfl
  · refine (shapeCast_a_a1_apply _ _ r 0).trans ?_
    refine (rowSum_apply _ _ _ _ r).trans ?_
    exact Finset.sum_congr rfl fun j _ => std_apply x0 x1 x2 _ _ r j
  · refine (shapeCast_a_a1_apply _ _ r 0).trans ?_
    refine (rowSum_apply _ _ _ _ r).trans ?_
    exact Finset.sum_congr rfl fun j _ => std_apply x0 x1 x2 _ _ r j
  · refine (shapeCast_a_a1_apply _ _ r 0).trans ?_
    refine (rowSum_apply _ _ _ _ r).trans ?_
    exact Finset.sum_congr rfl fun j _ => congrArg₂ (· * ·) (std_apply x0 x1 x2 _ _ r j) (std_apply x0 x1 x2 _ _ r j)

/-- So, when row r of the block is row b of a batch w, and the two row blocks are rows μ and σ, the body stores at
    row r the pair mean of row b of w standardized by μ and σ. -/
theorem pay_eq_pairMean (x0 : Vec Ideal S512x2048 .f32) (x1 x2 : Vec Ideal S1x2048 .f32)
    (w : Cert.Corr.SW.Idx → EReal) (μ σ : Fin 2048 → EReal) (r : Fin 512) (b : Fin 16384)
    (h0 : ∀ j : Fin 2048, x0 (ix2 r j) = w (ix2 b j)) (h1 : ∀ j : Fin 2048, x1 (ix2 0 j) = μ j)
    (h2 : ∀ j : Fin 2048, x2 (ix2 0 j) = σ j) :
    k1_pay1 (F := Ideal) x0 x1 x2 (ix2 r (0 : Fin 1)) = Cert.Corr.pairMean w μ σ b := by
  refine (pay_apply x0 x1 x2 r).trans ?_
  unfold Cert.Corr.pairMean Cert.Corr.z Cert.Corr.nPairs
  simp only [h0, h1, h2]

variable (V : (c : Dev nD) → (b : Ref sig .tc) → Buf (Elt Ideal) ((c : Thread nD τ).loc b))

/-! ## From the blocks to the array -/

theorem hz : (![0, 0] : Fin 2 → Nat) = fun _ => 0 := funext fun a => by fin_cases a <;> rfl

/-- The windows' block indices at every point of the grid: at point t the batch's window and the result's are at row
    block t, the two rows' windows at their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of the batch's block at point t is row 512 t + r of the batch. -/
theorem batch_blk_apply (c : Dev nD) (t : Fin cfg1.N) (r : Fin 512) (j : Fin 2048) (b : Fin 16384)
    (hb : b.val = 512 * t.val + r.val) :
    (iblk1 V c 0 t : Vec Ideal S512x2048 .f32) (ix2 r j) = (V c main_arg0 : S16384x2048.Idx → EReal) (ix2 b j) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 512 + 1 * r.val = b.val; rw [e0, hb]; omega
  | ⟨1, _⟩ => show win1_0.index t 1 * 2048 + 1 * j.val = j.val; rw [e1]; omega

/-- The mean row's block at any point is the mean row. -/
theorem mean_blk_apply (c : Dev nD) (t : Fin cfg1.N) (j : Fin 2048) :
    (iblk1 V c 1 t : Vec Ideal S1x2048 .f32) (ix2 0 j) = (V c main_v2 : S1x2048.Idx → EReal) (ix2 0 j) := by
  obtain ⟨-, -, e0, e1, -⟩ := idx_facts t
  unfold iblk1
  rw [View.read_apply]
  show V c main_v2 _ = V c main_v2 _
  congr 1
  funext a
  apply Fin.ext
  match a with
  | ⟨0, _⟩ => show win1_1.index t 0 * 1 + 1 * 0 = 0; rw [e0]
  | ⟨1, _⟩ => show win1_1.index t 1 * 2048 + 1 * j.val = j.val; rw [e1]; omega

/-- The deviation row's block at any point is the deviation row. -/
theorem dev_blk_apply (c : Dev nD) (t : Fin cfg1.N) (j : Fin 2048) :
    (iblk1 V c 2 t : Vec Ideal S1x2048 .f32) (ix2 0 j) = (V c main_v7 : S1x2048.Idx → EReal) (ix2 0 j) := by
  obtain ⟨-, -, -, -, e0, e1, -⟩ := idx_facts t
  unfold iblk1
  rw [View.read_apply]
  show V c main_v7 _ = V c main_v7 _
  congr 1
  funext a
  apply Fin.ext
  match a with
  | ⟨0, _⟩ => show win1_2.index t 0 * 1 + 1 * 0 = 0; rw [e0]
  | ⟨1, _⟩ => show win1_2.index t 1 * 2048 + 1 * j.val = j.val; rw [e1]; omega

/-- What point t writes back is block t of the rows' pair means. -/
theorem flushed_eq (c : Dev nD) (t : Fin cfg1.N) :
    (dat1 (F := Ideal) V c).flushed 3 t = ((cfg1.win 3).blk t).view.read (Elt Ideal)
      (fun i => Cert.Corr.pairMean (V c main_arg0) (fun j => V c main_v2 (ix2 0 j)) (fun j => V c main_v7 (ix2 0 j)) (i 0)) := by
  show (cfg1.win 3).cut (grid1.coords t) ((dat1 V c).after 3 t) = _
  rw [after1_3]
  unfold out1_3
  rw [View.canon_unit_zero hz]
  simp only [View.ld_unit_zero (S := S512x2048) hz, View.ld_unit_zero (S := S1x2048) hz]
  funext y
  obtain ⟨-, -, -, -, -, -, e0, e1⟩ := idx_facts t
  have hN : cfg1.N = 32 := N_1
  have ht : t.val < 32 := by have := t.isLt; omega
  have h0 : (y 0).val < 512 := (y 0).isLt
  have h1 : (y 1).val < 1 := (y 1).isLt
  have hy : (win1 3).xinj (grid1.coords t) y = ix2 (⟨(y 0).val, h0⟩ : Fin 512) (0 : Fin 1) :=
    funext fun a => Fin.ext (match a with
      | ⟨0, _⟩ => rfl
      | ⟨1, _⟩ => by show (y 1).val = 0; omega)
  have hb : (((View.whole main_v8).slice ((win1 3).rect t)).emb y) 0 = (⟨512 * t.val + (y 0).val, by omega⟩ : Fin 16384) :=
    Fin.ext (by show win1_3.index t 0 * 512 + 1 * (y 0).val = 512 * t.val + (y 0).val; rw [e0]; omega)
  show k1_pay1 (iblk1 V c 0 t) (iblk1 V c 1 t) (iblk1 V c 2 t) ((win1 3).xinj (grid1.coords t) y)
    = Cert.Corr.pairMean (V c main_arg0) (fun j => V c main_v2 (ix2 0 j)) (fun j => V c main_v7 (ix2 0 j))
        ((((View.whole main_v8).slice ((win1 3).rect t)).emb y) 0)
  rw [hy, hb]
  exact pay_eq_pairMean (iblk1 V c 0 t) (iblk1 V c 1 t) (iblk1 V c 2 t) (V c main_arg0) (fun j => V c main_v2 (ix2 0 j))
    (fun j => V c main_v7 (ix2 0 j)) ⟨(y 0).val, h0⟩ ⟨512 * t.val + (y 0).val, by omega⟩
    (fun j => batch_blk_apply V c t ⟨(y 0).val, h0⟩ j ⟨512 * t.val + (y 0).val, by omega⟩ rfl)
    (mean_blk_apply V c t) (dev_blk_apply V c t)

/-- An index of the result array is in point t's block iff each coordinate is in the block's range on its axis. -/
theorem mem_blk (t : Fin cfg1.N) (i : S16384x1.Idx) :
    i ∈ ((cfg1.win 3).blk t).view.set ↔ ∀ a : Fin 2, win1_3.index t a * S512x1.size a ≤ (i a).val
      ∧ (i a).val < win1_3.index t a * S512x1.size a + S512x1.size a := by
  show i ∈ ((View.whole main_v8).slice (win1_3.rect t)).set ↔ _
  rw [View.set_slice_whole, Rect.mem_set_unit]
  exact Iff.rfl

/-- Every row of the result is written back by some point: row b by point b / 512. -/
theorem covered (i : S16384x1.Idx) :
    ∃ t : Fin cfg1.N, (cfg1.win 3).flush t = true ∧ i ∈ ((cfg1.win 3).blk t).view.set := by
  have hN : cfg1.N = 32 := N_1
  have hi0 : (i 0).val < 16384 := (i 0).isLt
  have hi1 : (i 1).val < 1 := (i 1).isLt
  obtain ⟨t, ht⟩ : ∃ t : Fin cfg1.N, t.val = (i 0).val / 512 := ⟨⟨(i 0).val / 512, by omega⟩, rfl⟩
  obtain ⟨-, -, -, -, -, -, e0, e1⟩ := idx_facts t
  refine ⟨t, flush1_3 t, ?_⟩
  rw [mem_blk]
  intro a
  match a with
  | ⟨0, _⟩ =>
    show win1_3.index t 0 * 512 ≤ (i 0).val ∧ (i 0).val < win1_3.index t 0 * 512 + 512
    rw [e0, ht]; omega
  | ⟨1, _⟩ =>
    show win1_3.index t 1 * 1 ≤ (i 1).val ∧ (i 1).val < win1_3.index t 1 * 1 + 1
    rw [e1]; omega

/-- After the last point the result array holds, at row b, the pair mean of row b of the batch standardized by the mean
    row (the region's second operand) and the deviation row (its third). -/
theorem pairMean_final (c : Dev nD) :
    (dat1 (F := Ideal) V c).arrAt 3 cfg1.N
      = fun i => Cert.Corr.pairMean (V c main_arg0) (fun j => V c main_v2 (ix2 0 j)) (fun j => V c main_v7 (ix2 0 j)) (i 0) := by
  exact (dat1 V c).arrAt_eq_of_cover 3 _ (fun t _ => flushed_eq V c t) covered

end Cert.KernelIdeal.RowPair

end
-- ==== Proof.KernelValue.lean ====
/-
  The kernel's result as a value of the batch: between the two regions the host divides the two accumulated rows by
  16384 (the mean row, and the mean of squares), subtracts the mean's square and takes the square root (the deviation
  row); the second region leaves the pair means, row by row, of the batch standardized by those two rows; after it
  the host takes absolute values, sums them, divides by 16384 and multiplies by one. Read at the extended reals this is
  the specification's kernel value of the batch.
-/
import proofs.«166574_j86096914415914_1_alg».proof.Proof.Gen.KernelIdeal.Frame
import proofs.«166574_j86096914415914_1_alg».proof.Proof.Spec
import proofs.«166574_j86096914415914_1_alg».proof.Proof.Stats
import proofs.«166574_j86096914415914_1_alg».proof.Proof.RowPair
import proofs.«166574_j86096914415914_1_alg».proof.Proof.KernelRun
import Idealize.ShloMosaic.Lib.StableHlo.Run
import Idealize.ShloMosaic.Lib.ValueIdx
import Idealize.ShloMosaic.PureOps.Ideal.Laws

noncomputable section

open scoped BigOperators

namespace Cert.KernelIdeal.Value

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The batch as launched. -/
abbrev batch (c : Dev nD) : Cert.Corr.SW.Idx → EReal := m ((c : Thread nD τ).loc main_arg0)

/-- The batch is still as launched when the second region is entered. -/
theorem V2_arg0 (c : Dev nD) : V2 m ρ c main_arg0 = batch m c := by
  show W2 m ρ c (Proc.devRef .tc main_arg0) = _
  have h1 : W2 m ρ c (Proc.devRef .tc main_arg0) = W1 m ρ c (Proc.devRef .tc main_arg0) := by
    show StableHlo.after hostOps1 (W1 m ρ c) (Proc.devRef .tc main_arg0) = _
    after_results
  rw [h1]
  exact (W1_arr m ρ c 0).trans (((dat0 (V0 m ρ) c).arrAt_in 0 rfl _).trans (A_eq0 (V0 m ρ) c 0))

/-- The mean row the second region is given. -/
theorem V2_mean (c : Dev nD) (j : Fin 2048) : V2 m ρ c main_v2 (ix2 0 j) = Cert.Corr.mean (batch m c) j := by
  show W2 m ρ c (Proc.devRef .tc main_v2) (ix2 0 j) = _
  have h1 : W2 m ρ c (Proc.devRef .tc main_v2)
      = Host.divf (W1 m ρ c (Proc.devRef .tc main_v0_0)) (broadcastInDim S1x2048 ![] bcast_S_S1x2048 (constant (F := Ideal) S_ .f32 0x46800000#32)) := by
    show StableHlo.after hostOps1 (W1 m ρ c) (Proc.devRef .tc main_v2) = _
    after_results
  have e : W1 m ρ c (Proc.devRef .tc main_v0_0) = (dat0 (V0 m ρ) c).arrAt 1 cfg0.N := W1_arr m ρ c 1
  rw [h1, e, Cert.KernelIdeal.Stats.colSum_final (V0 m ρ) c]
  rfl

/-- The deviation row the second region is given. -/
theorem V2_std (c : Dev nD) (j : Fin 2048) :
    V2 m ρ c main_v7 (ix2 0 j) = Ideal.sqrt (Cert.Corr.varK (batch m c) j) := by
  show W2 m ρ c (Proc.devRef .tc main_v7) (ix2 0 j) = _
  have h1 : W2 m ρ c (Proc.devRef .tc main_v7)
      = Host.sqrt (subf
          (Host.divf (W1 m ρ c (Proc.devRef .tc main_v0_1)) (broadcastInDim S1x2048 ![] bcast_S_S1x2048 (constant (F := Ideal) S_ .f32 0x46800000#32)))
          (mulf
            (Host.divf (W1 m ρ c (Proc.devRef .tc main_v0_0)) (broadcastInDim S1x2048 ![] bcast_S_S1x2048 (constant (F := Ideal) S_ .f32 0x46800000#32)))
            (Host.divf (W1 m ρ c (Proc.devRef .tc main_v0_0)) (broadcastInDim S1x2048 ![] bcast_S_S1x2048 (constant (F := Ideal) S_ .f32 0x46800000#32))))) := by
    show StableHlo.after hostOps1 (W1 m ρ c) (Proc.devRef .tc main_v7) = _
    after_results
  have e1 : W1 m ρ c (Proc.devRef .tc main_v0_0) = (dat0 (V0 m ρ) c).arrAt 1 cfg0.N := W1_arr m ρ c 1
  have e2 : W1 m ρ c (Proc.devRef .tc main_v0_1) = (dat0 (V0 m ρ) c).arrAt 2 cfg0.N := W1_arr m ρ c 2
  rw [h1, e1, e2, Cert.KernelIdeal.Stats.colSum_final (V0 m ρ) c, Cert.KernelIdeal.Stats.colSq_final (V0 m ρ) c]
  rfl

/-- A sum over the indices of a column of 16384 entries is the sum over its rows. -/
theorem sum_col (g : Fin 16384 → EReal) : (∑ i : S16384x1.Idx, g (i 0)) = ∑ b : Fin 16384, g b := by
  rw [sum_idx2]
  refine Finset.sum_congr rfl fun a _ => ?_
  rw [Fin.sum_univ_one]

/-- The program's result, at the last boundary, is the specification's kernel value of the batch as launched. -/
theorem result_eq (c : Dev nD) :
    W4 m ρ c (Proc.devRef .tc main_v12) = fun _ => Cert.Corr.kernelVal (batch m c) := by
  have h1 : W4 m ρ c (Proc.devRef .tc main_v12)
      = mulf (constant (F := Ideal) S_ .f32 0x3F800000#32)
          (Host.divf
            (Host.reduceAdd (Host.absf (W3 m ρ c (Proc.devRef .tc main_v8))) (constant (F := Ideal) S_ .f32 0x00000000#32) reducesTo_S16384x1_S_d0_1 h_S_)
            (constant (F := Ideal) S_ .f32 0x46800000#32)) := by
    show StableHlo.after hostOps2 (W3 m ρ c) (Proc.devRef .tc main_v12) = _
    after_results
  have e3 : W3 m ρ c (Proc.devRef .tc main_v8) = (dat1 (V2 m ρ) c).arrAt 3 cfg1.N := W3_arr m ρ c 3
  rw [h1, e3, Cert.KernelIdeal.RowPair.pairMean_final (V2 m ρ) c, V2_arg0 m ρ c,
    show (fun j => V2 m ρ c main_v2 (ix2 0 j)) = Cert.Corr.mean (batch m c) from funext (V2_mean m ρ c),
    show (fun j => V2 m ρ c main_v7 (ix2 0 j)) = (fun j => Ideal.sqrt (Cert.Corr.varK (batch m c) j)) from funext (V2_std m ρ c)]
  funext i
  unfold Cert.Corr.kernelVal Cert.Corr.loss
  show Cert.Corr.scale * Ideal.div (Ideal.hostReduceAdd reducesTo_S16384x1_S_d0_1 _ (Ideal.ofBits .f32 0x00000000#32) ix0) Cert.Corr.nB = _
  rw [Ideal.hostReduceAdd_total _ (fun b => b.elim0), Ideal.ofBits_zero_f32, zero_add]
  exact congrArg (fun s => Cert.Corr.scale * Ideal.div s Cert.Corr.nB)
    (sum_col fun b => max (Cert.Corr.pairMean (batch m c) (Cert.Corr.mean (batch m c)) (fun j => Ideal.sqrt (Cert.Corr.varK (batch m c) j)) b)
      (-(Cert.Corr.pairMean (batch m c) (Cert.Corr.mean (batch m c)) (fun j => Ideal.sqrt (Cert.Corr.varK (batch m c) j)) b)))

/-- Every weakly fair execution of the program terminates with its result at the specification's kernel value of the
    batch as launched, and the batch unchanged. -/
theorem run : θ_run defs (onTc (τ := τ) (main (F := Ideal))) ⟨m, fun _ => 0, ρ⟩ fun r => ∀ c : Dev nD,
      r.2.mem ((c.tc : Thread nD τ).loc main_v12) = (fun _ => Cert.Corr.kernelVal (batch m c))
      ∧ r.2.mem ((c.tc : Thread nD τ).loc main_arg0) = m ((c.tc : Thread nD τ).loc main_arg0) :=
  (θ_run defs _ _).mono (fun _ h c => ⟨(h c).1.trans (result_eq m ρ c), (h c).2⟩)
    (Cert.KernelIdeal.Run.run_result (F := Ideal) m ρ)

end Cert.KernelIdeal.Value

end
-- ==== Proof.RefTerm.lean ====
/-
  The reference's result as a composed term of the batch w, stage by stage, each stage the host operations of the
  reference's text that produce one of its values: the column mean; inside the variance function the mean again
  (kept with its unit row axis), the squared deviations, the normalizer 16384 minus the degrees-of-freedom
  correction (an integer zero converted to a float), their quotient, and the select that keeps the quotient where
  the normalizer is positive; the deviation as its square root; the standardized batch; the two row sums; the mean
  over the pairs; the loss.
-/
import proofs.«166574_j86096914415914_1_alg».proof.Proof.Gen.ReferenceIdeal

noncomputable section

namespace Cert.ReferenceIdeal.Term

open Cert.ReferenceIdeal Cert.ReferenceIdeal.Gen Idealize.ShloMosaic

variable {F : FTy → Type} [FloatOps F]
variable (w : FVec F S16384x2048 .f32)

/-- The column sums, from zero. -/
def colSum : FVec F S2048 .f32 :=
  Host.reduceAdd w (constant S_ .f32 0x00000000#32) reducesTo_S16384x2048_S2048_d0 h_S_
/-- The column mean. -/
def mean : FVec F S2048 .f32 :=
  Host.divf (colSum w) (broadcastInDim S2048 ![] bcast_S_S2048 (constant S_ .f32 0x46800000#32))
/-- The column mean as the variance function computes it, with its unit row axis. -/
def meanRow : FVec F S1x2048 .f32 :=
  Host.divf (broadcastInDim S1x2048 ![1] bcast_S2048_S1x2048_1 (colSum w))
    (broadcastInDim S1x2048 ![] bcast_S_S1x2048 (constant S_ .f32 0x46800000#32))
/-- The deviations from the column mean. -/
def centered : FVec F S16384x2048 .f32 :=
  subf w (broadcastInDim S16384x2048 ![0, 1] bcast_S1x2048_S16384x2048_0_1 (meanRow w))
/-- The normalizer: 16384 minus the correction, an integer zero converted. -/
def normalizer : FVec F S_ .f32 :=
  subf (constant S_ .f32 0x46800000#32) (sitofp .f32 (constantI S_ 32 0#32))
/-- The sum of the squared deviations over the normalizer. -/
def varQuot : FVec F S2048 .f32 :=
  Host.divf (Host.reduceAdd (mulf (centered w) (centered w)) (constant S_ .f32 0x00000000#32) reducesTo_S16384x2048_S2048_d0 h_S_)
    (broadcastInDim S2048 ![] bcast_S_S2048 (normalizer (F := F)))
/-- The variance: the quotient where the normalizer is positive, else the not-a-number pattern. -/
def var : FVec F S2048 .f32 :=
  select (broadcastInDim S2048 ![] bcast_S_S2048 (cmpf .ogt (normalizer (F := F)) (constant S_ .f32 0x00000000#32)))
    (varQuot w)
    (broadcastInDim S2048 ![] bcast_S_S2048 (id (constant S_ .f32 0x7FC00000#32)))
/-- The column deviation. -/
def std : FVec F S2048 .f32 := Host.sqrt (var w)
/-- The standardized batch. -/
def fs : FVec F S16384x2048 .f32 :=
  Host.divf
    (subf w (broadcastInDim S16384x2048 ![0, 1] bcast_S1x2048_S16384x2048_0_1 (broadcastInDim S1x2048 ![1] bcast_S2048_S1x2048_1 (mean w))))
    (broadcastInDim S16384x2048 ![0, 1] bcast_S1x2048_S16384x2048_0_1 (broadcastInDim S1x2048 ![1] bcast_S2048_S1x2048_1 (std w)))
/-- The row sums of the standardized batch. -/
def rowSum : FVec F S16384 .f32 :=
  Host.reduceAdd (fs w) (constant S_ .f32 0x00000000#32) reducesTo_S16384x2048_S16384_d1 h_S_
/-- The row sums of its squares. -/
def rowSq : FVec F S16384 .f32 :=
  Host.reduceAdd (mulf (fs w) (fs w)) (constant S_ .f32 0x00000000#32) reducesTo_S16384x2048_S16384_d1 h_S_
/-- The mean over the column pairs, row by row. -/
def pairMean : FVec F S16384 .f32 :=
  Host.divf (subf (mulf (rowSum w) (rowSum w)) (rowSq w)) (broadcastInDim S16384 ![] bcast_S_S16384 (constant S_ .f32 0x4A7FE000#32))
/-- The loss. -/
def out : FVec F S_ .f32 :=
  mulf (constant S_ .f32 0x3F800000#32)
    (Host.divf (Host.reduceAdd (Host.absf (pairMean w)) (constant S_ .f32 0x00000000#32) reducesTo_S16384_S_d0 h_S_)
      (constant S_ .f32 0x46800000#32))

end Cert.ReferenceIdeal.Term

end
-- ==== Proof.RefRun.lean ====
/-
  The reference's run: its text is a straight line of host operations once the three functions it calls are unfolded
  at their call sites, and every execution ends with the result at the composed term of the batch.
-/
import proofs.«166574_j86096914415914_1_alg».proof.Proof.Gen.ReferenceIdeal
import proofs.«166574_j86096914415914_1_alg».proof.Proof.RefTerm
import Idealize.ShloMosaic.Lib.StableHlo.Run

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, the three functions it calls unfolded at their call sites: the column mean
    (five operations and the integer zero), the variance function's nineteen over its own values, the select function's
    three, the square root, then the standardized batch, its two row sums, the mean over the pairs and the loss. -/
abbrev ops : List (HloOp τ sig (Elt F)) :=
  [ nullary main_cst (constant S_ .f32 0x00000000#32),
    binary main_arg0 main_cst main_v0 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_0 (constant S_ .f32 0x46800000#32),
    unary main_cst_0 main_v1 (broadcastInDim S2048 ![] bcast_S_S2048 : (⟨S_, .f32⟩ : BufTy).Contents (Elt F) → (⟨S2048, .f32⟩ : BufTy).Contents (Elt F)),
    binary main_v0 main_v1 main_v2 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    TRef.nullary main_call0.call0.cst (constant S_ .f32 0x00000000#32),
    TRef.binary (.of main_arg0 : TRef sig ⟨S16384x2048, .f32⟩) main_call0.call0.cst main_call0.call0.v0 (fun x v => Host.reduceAdd x v reducesTo_S16384x2048_S2048_d0 h_S_),
    TRef.unary main_call0.call0.v0 main_call0.call0.v1 (broadcastInDim S1x2048 ![1] bcast_S2048_S1x2048_1),
    TRef.nullary main_call0.call0.cst_0 (constant S_ .f32 0x46800000#32),
    TRef.unary main_call0.call0.cst_0 main_call0.call0.v2 (broadcastInDim S1x2048 ![] bcast_S_S1x2048),
    TRef.binary main_call0.call0.v1 main_call0.call0.v2 main_call0.call0.v3 Host.divf,
    TRef.unary main_call0.call0.v3 main_call0.call0.v4 (broadcastInDim S16384x2048 ![0, 1] bcast_S1x2048_S16384x2048_0_1),
    TRef.binary (.of main_arg0 : TRef sig ⟨S16384x2048, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp (F := F) .f32),
    TRef.nullary main_call0.call0.cst_1 (constant S_ .f32 0x46800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16384x2048_S2048_d0 h_S_),
    TRef.unary main_call0.call0.v8 main_call0.call0.v10 (broadcastInDim S2048 ![] bcast_S_S2048),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf (F := F) .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S2048 ![] bcast_S_S2048),
    TRef.ternary main_call0.call0.v12 main_call0.call0.v11 main_call0.call0.call0.v1 main_call0.call0.call0.v2 (fun p a b => select (broadcastInDim S2048 ![] bcast_S_S2048 p) a b),
    TRef.unary main_call0.call0.call0.v2 main_call0.v1 Host.sqrt,
    unary main_v2 main_v4 (broadcastInDim S1x2048 ![1] bcast_S2048_S1x2048_1 : (⟨S2048, .f32⟩ : BufTy).Contents (Elt F) → (⟨S1x2048, .f32⟩ : BufTy).Contents (Elt F)),
    unary main_v4 main_v5 (broadcastInDim S16384x2048 ![0, 1] bcast_S1x2048_S16384x2048_0_1 : (⟨S1x2048, .f32⟩ : BufTy).Contents (Elt F) → (⟨S16384x2048, .f32⟩ : BufTy).Contents (Elt F)),
    binary main_arg0 main_v5 main_v6 (subf : (⟨S16384x2048, .f32⟩ : BufTy).Contents (Elt F) → (⟨S16384x2048, .f32⟩ : BufTy).Contents (Elt F) → (⟨S16384x2048, .f32⟩ : BufTy).Contents (Elt F)),
    unary main_v3 main_v7 (broadcastInDim S1x2048 ![1] bcast_S2048_S1x2048_1 : (⟨S2048, .f32⟩ : BufTy).Contents (Elt F) → (⟨S1x2048, .f32⟩ : BufTy).Contents (Elt F)),
    unary main_v7 main_v8 (broadcastInDim S16384x2048 ![0, 1] bcast_S1x2048_S16384x2048_0_1 : (⟨S1x2048, .f32⟩ : BufTy).Contents (Elt F) → (⟨S16384x2048, .f32⟩ : BufTy).Contents (Elt F)),
    binary main_v6 main_v8 main_v9 (Host.divf : (⟨S16384x2048, .f32⟩ : BufTy).Contents (Elt F) → (⟨S16384x2048, .f32⟩ : BufTy).Contents (Elt F) → (⟨S16384x2048, .f32⟩ : BufTy).Contents (Elt F)),
    nullary main_cst_1 (constant S_ .f32 0x00000000#32),
    binary main_v9 main_cst_1 main_v10 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v9 main_v9 main_v11 (mulf : (⟨S16384x2048, .f32⟩ : BufTy).Contents (Elt F) → (⟨S16384x2048, .f32⟩ : BufTy).Contents (Elt F) → (⟨S16384x2048, .f32⟩ : BufTy).Contents (Elt F)),
    nullary main_cst_2 (constant S_ .f32 0x00000000#32),
    binary main_v11 main_cst_2 main_v12 ((fun x v => Host.reduceAdd x v reducesTo_S16384x2048_S16384_d1 h_S_) : (⟨S16384x2048, .f32⟩ : BufTy).Contents (Elt F) → (⟨S_, .f32⟩ : BufTy).Contents (Elt F) → (⟨S16384, .f32⟩ : BufTy).Contents (Elt F)),
    binary main_v10 main_v10 main_v13 (mulf : (⟨S16384, .f32⟩ : BufTy).Contents (Elt F) → (⟨S16384, .f32⟩ : BufTy).Contents (Elt F) → (⟨S16384, .f32⟩ : BufTy).Contents (Elt F)),
    binary main_v13 main_v12 main_v14 (subf : (⟨S16384, .f32⟩ : BufTy).Contents (Elt F) → (⟨S16384, .f32⟩ : BufTy).Contents (Elt F) → (⟨S16384, .f32⟩ : BufTy).Contents (Elt F)),
    nullary main_cst_3 (constant S_ .f32 0x4A7FE000#32),
    unary main_cst_3 main_v15 (broadcastInDim S16384 ![] bcast_S_S16384 : (⟨S_, .f32⟩ : BufTy).Contents (Elt F) → (⟨S16384, .f32⟩ : BufTy).Contents (Elt F)),
    binary main_v14 main_v15 main_v16 (Host.divf : (⟨S16384, .f32⟩ : BufTy).Contents (Elt F) → (⟨S16384, .f32⟩ : BufTy).Contents (Elt F) → (⟨S16384, .f32⟩ : BufTy).Contents (Elt F)),
    unary main_v16 main_v17 (Host.absf : (⟨S16384, .f32⟩ : BufTy).Contents (Elt F) → (⟨S16384, .f32⟩ : BufTy).Contents (Elt F)),
    nullary main_cst_4 (constant S_ .f32 0x00000000#32),
    binary main_v17 main_cst_4 main_v18 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_5 (constant S_ .f32 0x46800000#32),
    binary main_v18 main_cst_5 main_v19 (Host.divf : (⟨S_, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v19 main_v20 (mulf : (⟨S_, .f32⟩ : BufTy).Contents (Elt F) → (⟨S_, .f32⟩ : BufTy).Contents (Elt F) → (⟨S_, .f32⟩ : BufTy).Contents (Elt F)) ]

-- fifty-two steps in sequence, re-associated one by one
set_option maxRecDepth 1024 in
/-- The reference is that straight line: the functions' definitions unfolded at their calls, both sides are one chain
    of steps once sequencing is reassociated. -/
theorem main_eq (c : Dev nD) : main (F := F) c = seq ops := by
  simp only [main, fn_std.body, fn_var.body, fn_where.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    unary_bufs_sub .., binary_bufs_sub .., unary_bufs_sub .., unary_bufs_sub .., binary_bufs_sub .., nullary_bufs_sub ..,
    binary_bufs_sub .., binary_bufs_sub .., nullary_bufs_sub .., binary_bufs_sub .., binary_bufs_sub .., binary_bufs_sub ..,
    nullary_bufs_sub .., unary_bufs_sub .., binary_bufs_sub .., unary_bufs_sub .., nullary_bufs_sub .., binary_bufs_sub ..,
    nullary_bufs_sub .., binary_bufs_sub .., nullary_bufs_sub .., binary_bufs_sub ..⟩

/-- The fold of the operations at the result buffer is the composed term of the batch: each operation's result at its
    own buffer is its function's value and at any other buffer what was there; the typed references' transports are
    the identity at these literal references; what is left is the composed term, stage by stage. -/
theorem out_read (V : Valuation τ sig (Elt F)) :
    after ops V (main_v20 : DevRef τ sig) = Term.out (V (main_arg0 : DevRef τ sig)) := by
  after_results_simp
  <;> (try simp only [TRef.ofBuf, TRef.toBuf, cast_eq])
  <;> rfl

/-- No operation writes the batch. -/
theorem arg0_read (V : Valuation τ sig (Elt F)) :
    after ops V (main_arg0 : DevRef τ sig) = V (main_arg0 : DevRef τ sig) := by
  after_results_simp

/-- Every weakly fair execution of the reference terminates with its result at the composed term of the batch and the
    batch unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Term.out (m ((c.tc : Thread nD τ).loc main_arg0))
      ∧ r.2.mem ((c.tc : Thread nD τ).loc main_arg0) = m ((c.tc : Thread nD τ).loc main_arg0) :=
  (θ_run defs _ _).mono (fun _ h c => ⟨(h c main_v20).trans (out_read _), (h c main_arg0).trans (arg0_read _)⟩)
    (run_seq scopedRefs_eq scopedSems_eq defs main (fun _ => ops) main_eq (fun _ => ops_sub) m ρ)

end Cert.ReferenceIdeal.Hand

end
-- ==== Proof.Consts.lean ====
/-
  The float patterns the two programs spell that the proof evaluates, as the extended reals they denote: 16384.0 is the
  real 16384 (so dividing by it is multiplying by its reciprocal, and it is positive), and +0.0 is 0.
-/
import Idealize.ShloMosaic.PureOps.Ideal
import proofs.«166574_j86096914415914_1_alg».proof.Proof.Spec

noncomputable section

namespace Cert.Corr

open Idealize.ShloMosaic

/-- The pattern of 16384.0 denotes the real 16384. -/
theorem nB_eq : nB = ((16384 : ℝ) : EReal) := by
  unfold nB
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- 16384 is above zero. -/
theorem nB_pos : (0 : EReal) < nB := by
  rw [nB_eq]; exact_mod_cast (by norm_num : (0 : ℝ) < 16384)

/-- Dividing an extended real by the pattern of 16384.0 is multiplying it by the real 1/16384. -/
theorem div_nB (x : EReal) : Ideal.div x nB = x * ((1 / 16384 : ℝ) : EReal) := by
  rw [nB_eq]; exact Ideal.div_coe (by norm_num) x

end Cert.Corr

end
-- ==== Proof.RefRead.lean ====
/-
  The reference's composed term read at the extended reals: it is the loss of the pair means of the batch
  standardized by the column mean and the square root of the two-pass variance.
-/
import proofs.«166574_j86096914415914_1_alg».proof.Proof.RefTerm
import proofs.«166574_j86096914415914_1_alg».proof.Proof.Spec
import proofs.«166574_j86096914415914_1_alg».proof.Proof.Consts
import Idealize.ShloMosaic.Lib.ValueIdx
import Idealize.ShloMosaic.Lib.ValueLayout
import Idealize.ShloMosaic.PureOps.Ideal.Laws

noncomputable section

open scoped BigOperators

namespace Cert.ReferenceIdeal.Read

open Cert.ReferenceIdeal Cert.ReferenceIdeal.Gen Idealize.ShloMosaic Idealize.ShloMosaic.ValueIdx

/-! ## The reductions and the broadcasts read at an index -/

/-- The column reduction's shape fact, in the form that names the inserted index. -/
theorem red0 : Shape.Reduces S16384x2048 [0] S2048 := by decide
/-- The row reduction's shape fact, in the form that names the inserted index. -/
theorem red1 : Shape.Reduces S16384x2048 [1] S16384 := by decide

/-- Column j with row k inserted is the entry (k, j). -/
theorem lift0 (j : Fin 2048) (k : Fin 16384) : red0.lift (ix1 j) k = ix2 k j := by
  funext d
  match d with
  | ⟨0, _⟩ => exact Fin.ext rfl
  | ⟨1, _⟩ => exact Fin.ext rfl

/-- Row b with column k inserted is the entry (b, k). -/
theorem lift1 (b : Fin 16384) (k : Fin 2048) : red1.lift (ix1 b) k = ix2 b k := by
  funext d
  match d with
  | ⟨0, _⟩ => exact Fin.ext rfl
  | ⟨1, _⟩ => exact Fin.ext rfl

/-- The sum over the rows, from zero, at column j. -/
theorem reduce0_apply (x : FVec Ideal S16384x2048 .f32) (j : Fin 2048) :
    Host.reduceAdd x (constant (F := Ideal) S_ .f32 0x00000000#32) reducesTo_S16384x2048_S2048_d0 h_S_ (ix1 j)
      = ∑ b : Fin 16384, x (ix2 b j) := by
  show Ideal.hostReduceAdd reducesTo_S16384x2048_S2048_d0 x (Ideal.ofBits .f32 0x00000000#32) (ix1 j) = _
  rw [Ideal.hostReduceAdd_single _ red0, Ideal.ofBits_zero_f32, zero_add]
  exact Finset.sum_congr rfl fun k _ => congrArg x (lift0 j k)

/-- The sum over the columns, from zero, at row b. -/
theorem reduce1_apply (x : FVec Ideal S16384x2048 .f32) (b : Fin 16384) :
    Host.reduceAdd x (constant (F := Ideal) S_ .f32 0x00000000#32) reducesTo_S16384x2048_S16384_d1 h_S_ (ix1 b)
      = ∑ j : Fin 2048, x (ix2 b j) := by
  show Ideal.hostReduceAdd reducesTo_S16384x2048_S16384_d1 x (Ideal.ofBits .f32 0x00000000#32) (ix1 b) = _
  rw [Ideal.hostReduceAdd_single _ red1, Ideal.ofBits_zero_f32, zero_add]
  exact Finset.sum_congr rfl fun k _ => congrArg x (lift1 b k)

/-- The indices of a vector of 16384 entries are its coordinates. -/
def rowEquiv : S16384.Idx ≃ Fin 16384 where
  toFun i := i 0
  invFun := ix1
  left_inv i := (eq_ix1 i).symm
  right_inv _ := rfl

/-- The sum of a whole vector of 16384 entries, from zero. -/
theorem reduceT_apply (x : FVec Ideal S16384 .f32) (i : S_.Idx) :
    Host.reduceAdd x (constant (F := Ideal) S_ .f32 0x00000000#32) reducesTo_S16384_S_d0 h_S_ i
      = ∑ b : Fin 16384, x (ix1 b) := by
  show Ideal.hostReduceAdd reducesTo_S16384_S_d0 x (Ideal.ofBits .f32 0x00000000#32) i = _
  rw [Ideal.hostReduceAdd_total _ (fun b => b.elim0), Ideal.ofBits_zero_f32, zero_add]
  exact Fintype.sum_equiv rowEquiv _ _ fun i => by rw [eq_ix1 i]; rfl

/-- A scalar broadcast reads the scalar. -/
theorem bcast_scalar {T : Shape} {α : Type} (h : S_.BroadcastsInDim T ![]) (x : S_.Idx → α) (j : T.Idx) :
    broadcastInDim T ![] h x j = x ix0 :=
  broadcastInDim_apply _ h x j ix0 fun a => a.elim0

/-- A row vector given a unit row axis reads the vector at the column. -/
theorem bcast_row {α : Type} (x : S2048.Idx → α) (i : Fin 1) (j : Fin 2048) :
    broadcastInDim S1x2048 ![1] bcast_S2048_S1x2048_1 x (ix2 i j) = x (ix1 j) :=
  broadcastInDim_apply _ _ x _ (ix1 j) fun a => match a with | ⟨0, _⟩ => rfl

/-- A unit-row matrix broadcast down the rows reads its one row at the column. -/
theorem bcast_rows {α : Type} (x : S1x2048.Idx → α) (b : Fin 16384) (j : Fin 2048) :
    broadcastInDim S16384x2048 ![0, 1] bcast_S1x2048_S16384x2048_0_1 x (ix2 b j) = x (ix2 0 j) :=
  broadcastInDim_apply _ _ x _ (ix2 0 j) fun a => match a with | ⟨0, _⟩ => rfl | ⟨1, _⟩ => rfl

/-! ## The stages read at an index -/

/-- The column sums. -/
theorem colSum_apply (w : FVec Ideal S16384x2048 .f32) (j : Fin 2048) :
    Term.colSum (F := Ideal) w (ix1 j) = Cert.Corr.colSum w j := by
  unfold Term.colSum Cert.Corr.colSum
  exact reduce0_apply w j

/-- The column mean. -/
theorem mean_apply (w : FVec Ideal S16384x2048 .f32) (j : Fin 2048) :
    Term.mean (F := Ideal) w (ix1 j) = Cert.Corr.mean w j := by
  unfold Term.mean Cert.Corr.mean Cert.Corr.nB
  show Ideal.div (Term.colSum (F := Ideal) w (ix1 j))
      (broadcastInDim S2048 ![] bcast_S_S2048 (constant (F := Ideal) S_ .f32 0x46800000#32) (ix1 j)) = _
  rw [colSum_apply, bcast_scalar, constant_apply]

/-- The column mean with its unit row axis. -/
theorem meanRow_apply (w : FVec Ideal S16384x2048 .f32) (i : Fin 1) (j : Fin 2048) :
    Term.meanRow (F := Ideal) w (ix2 i j) = Cert.Corr.mean w j := by
  unfold Term.meanRow Cert.Corr.mean Cert.Corr.nB
  show Ideal.div (broadcastInDim S1x2048 ![1] bcast_S2048_S1x2048_1 (Term.colSum (F := Ideal) w) (ix2 i j))
      (broadcastInDim S1x2048 ![] bcast_S_S1x2048 (constant (F := Ideal) S_ .f32 0x46800000#32) (ix2 i j)) = _
  rw [bcast_row, colSum_apply, bcast_scalar, constant_apply]

/-- The deviations from the column mean. -/
theorem centered_apply (w : FVec Ideal S16384x2048 .f32) (b : Fin 16384) (j : Fin 2048) :
    Term.centered (F := Ideal) w (ix2 b j) = w (ix2 b j) - Cert.Corr.mean w j := by
  unfold Term.centered
  rw [subf_apply, bcast_rows, meanRow_apply]

/-- The normalizer is the number of rows. -/
theorem normalizer_apply (i : S_.Idx) : Term.normalizer (F := Ideal) i = Cert.Corr.nB := by
  unfold Term.normalizer Cert.Corr.nB
  rw [subf_apply, constant_apply, sitofp_apply]
  show Ideal.ofBits .f32 0x46800000#32 - (((0#32 : BitVec 32).toInt : ℝ) : EReal) = _
  have h0 : (0#32 : BitVec 32).toInt = 0 := by decide
  rw [h0, Int.cast_zero, EReal.coe_zero, sub_zero]

/-- The number of rows is above zero, as the comparison reads it. -/
theorem cmp_nB : Ideal.cmp .ogt Cert.Corr.nB (Ideal.ofBits .f32 0x00000000#32) = 1#1 := by
  unfold Ideal.cmp
  rw [Cert.Corr.ofBits_zero]
  show BitVec.ofBool (decide ((0 : EReal) < Cert.Corr.nB)) = 1#1
  rw [decide_eq_true Cert.Corr.nB_pos]
  rfl

/-- The sum of the squared deviations over the number of rows. -/
theorem varQuot_apply (w : FVec Ideal S16384x2048 .f32) (j : Fin 2048) :
    Term.varQuot (F := Ideal) w (ix1 j) = Cert.Corr.varR w j := by
  unfold Term.varQuot Cert.Corr.varR
  show Ideal.div (Host.reduceAdd (mulf (Term.centered (F := Ideal) w) (Term.centered (F := Ideal) w))
        (constant (F := Ideal) S_ .f32 0x00000000#32) reducesTo_S16384x2048_S2048_d0 h_S_ (ix1 j))
      (broadcastInDim S2048 ![] bcast_S_S2048 (Term.normalizer (F := Ideal)) (ix1 j)) = _
  rw [reduce0_apply, bcast_scalar, normalizer_apply]
  refine congrArg (fun s => Ideal.div s Cert.Corr.nB) (Finset.sum_congr rfl fun b _ => ?_)
  rw [mulf_apply, centered_apply]

/-- The variance: the select keeps the quotient. -/
theorem var_apply (w : FVec Ideal S16384x2048 .f32) (j : Fin 2048) :
    Term.var (F := Ideal) w (ix1 j) = Cert.Corr.varR w j := by
  unfold Term.var
  rw [select_apply, bcast_scalar, cmpf_apply, normalizer_apply, constant_apply]
  show Scalar.select (Ideal.cmp .ogt Cert.Corr.nB (Ideal.ofBits .f32 0x00000000#32)) _ _ = _
  rw [cmp_nB, select_one, varQuot_apply]

/-- The column deviation. -/
theorem std_apply (w : FVec Ideal S16384x2048 .f32) (j : Fin 2048) :
    Term.std (F := Ideal) w (ix1 j) = Ideal.sqrt (Cert.Corr.varR w j) := by
  unfold Term.std
  show Ideal.sqrt (Term.var (F := Ideal) w (ix1 j)) = _
  rw [var_apply]

/-- The standardized batch. -/
theorem fs_apply (w : FVec Ideal S16384x2048 .f32) (b : Fin 16384) (j : Fin 2048) :
    Term.fs (F := Ideal) w (ix2 b j)
      = Cert.Corr.z w (Cert.Corr.mean w) (fun j => Ideal.sqrt (Cert.Corr.varR w j)) b j := by
  unfold Term.fs Cert.Corr.z
  show Ideal.div
      (subf w (broadcastInDim S16384x2048 ![0, 1] bcast_S1x2048_S16384x2048_0_1
        (broadcastInDim S1x2048 ![1] bcast_S2048_S1x2048_1 (Term.mean (F := Ideal) w))) (ix2 b j))
      (broadcastInDim S16384x2048 ![0, 1] bcast_S1x2048_S16384x2048_0_1
        (broadcastInDim S1x2048 ![1] bcast_S2048_S1x2048_1 (Term.std (F := Ideal) w)) (ix2 b j)) = _
  rw [subf_apply, bcast_rows, bcast_row, mean_apply, bcast_rows, bcast_row, std_apply]

/-- The row sums of the standardized batch. -/
theorem rowSum_apply (w : FVec Ideal S16384x2048 .f32) (b : Fin 16384) :
    Term.rowSum (F := Ideal) w (ix1 b)
      = ∑ j : Fin 2048, Cert.Corr.z w (Cert.Corr.mean w) (fun j => Ideal.sqrt (Cert.Corr.varR w j)) b j := by
  unfold Term.rowSum
  rw [reduce1_apply]
  exact Finset.sum_congr rfl fun j _ => fs_apply w b j

/-- The row sums of its squares. -/
theorem rowSq_apply (w : FVec Ideal S16384x2048 .f32) (b : Fin 16384) :
    Term.rowSq (F := Ideal) w (ix1 b)
      = ∑ j : Fin 2048, Cert.Corr.z w (Cert.Corr.mean w) (fun j => Ideal.sqrt (Cert.Corr.varR w j)) b j
          * Cert.Corr.z w (Cert.Corr.mean w) (fun j => Ideal.sqrt (Cert.Corr.varR w j)) b j := by
  unfold Term.rowSq
  rw [reduce1_apply]
  exact Finset.sum_congr rfl fun j _ => by rw [mulf_apply, fs_apply]

/-- The mean over the column pairs. -/
theorem pairMean_apply (w : FVec Ideal S16384x2048 .f32) (b : Fin 16384) :
    Term.pairMean (F := Ideal) w (ix1 b)
      = Cert.Corr.pairMean w (Cert.Corr.mean w) (fun j => Ideal.sqrt (Cert.Corr.varR w j)) b := by
  unfold Term.pairMean Cert.Corr.pairMean Cert.Corr.nPairs
  show Ideal.div (subf (mulf (Term.rowSum (F := Ideal) w) (Term.rowSum (F := Ideal) w)) (Term.rowSq (F := Ideal) w) (ix1 b))
      (broadcastInDim S16384 ![] bcast_S_S16384 (constant (F := Ideal) S_ .f32 0x4A7FE000#32) (ix1 b)) = _
  rw [subf_apply, mulf_apply, rowSum_apply, rowSq_apply, bcast_scalar, constant_apply]

/-- The reference's term of a batch is, at its one index, the specification's reference value. -/
theorem out_eq (w : FVec Ideal S16384x2048 .f32) : Term.out (F := Ideal) w = fun _ => Cert.Corr.refVal w := by
  funext i
  unfold Term.out Cert.Corr.refVal Cert.Corr.loss Cert.Corr.scale Cert.Corr.nB
  rw [mulf_apply, constant_apply]
  show Ideal.ofBits .f32 0x3F800000#32
      * Ideal.div (Host.reduceAdd (Host.absf (Term.pairMean (F := Ideal) w)) (constant (F := Ideal) S_ .f32 0x00000000#32)
          reducesTo_S16384_S_d0 h_S_ i) (constant (F := Ideal) S_ .f32 0x46800000#32 i) = _
  rw [reduceT_apply, constant_apply]
  refine congrArg (fun s => Ideal.ofBits .f32 0x3F800000#32 * Ideal.div s (Ideal.ofBits .f32 0x46800000#32))
    (Finset.sum_congr rfl fun b _ => ?_)
  show max (Term.pairMean (F := Ideal) w (ix1 b)) (-(Term.pairMean (F := Ideal) w (ix1 b))) = _
  rw [pairMean_apply]

end Cert.ReferenceIdeal.Read

end
-- ==== Proof.Algebra.lean ====
/-
  The two variances agree on a batch of real numbers, and with them the two values.

  For real numbers f_b over a finite index set of n elements, with S their sum, Q the sum of their squares and
  mu = S / n: the sum of (f_b - mu)^2 is Q - 2 mu S + n mu^2 = Q - n mu^2 (as S = n mu), so its n-th part is
  Q / n - mu^2. On the extended reals the same holds of a batch whose every entry is a real, since sums, products,
  differences and quotients by 16384 of reals are the reals' own; this is where finiteness is used: at an infinite entry
  the one-pass form meets infinity minus infinity where the two-pass form does not.
-/
import proofs.«166574_j86096914415914_1_alg».proof.Proof.Spec
import proofs.«166574_j86096914415914_1_alg».proof.Proof.Consts
import Mathlib.Algebra.BigOperators.Field
import Mathlib.Tactic.Ring
import Mathlib.Tactic.FieldSimp

noncomputable section

open scoped BigOperators

namespace Cert.Corr

open Idealize.ShloMosaic Idealize.ShloMosaic.ValueIdx

/-- The variance identity over the reals: the mean squared deviation from the mean is the mean of the squares minus the
    square of the mean. -/
theorem var_identity {ι : Type} [Fintype ι] (f : ι → ℝ) (n : ℝ) (hn : (Fintype.card ι : ℝ) = n) (hn0 : n ≠ 0) :
    (∑ b, (f b - (∑ b, f b) / n) * (f b - (∑ b, f b) / n)) / n
      = (∑ b, f b * f b) / n - ((∑ b, f b) / n) * ((∑ b, f b) / n) := by
  have h : ∀ b, (f b - (∑ b, f b) / n) * (f b - (∑ b, f b) / n)
      = f b * f b - 2 * ((∑ b, f b) / n) * f b + ((∑ b, f b) / n) * ((∑ b, f b) / n) := fun b => by ring
  simp_rw [h]
  rw [Finset.sum_add_distrib, Finset.sum_sub_distrib, ← Finset.mul_sum, Finset.sum_const, Finset.card_univ,
    nsmul_eq_mul, hn]
  field_simp
  ring

/-- A finite sum of reals, taken in the extended reals, is the reals' sum. -/
theorem coe_sum {ι : Type} (s : Finset ι) (f : ι → ℝ) : (∑ b ∈ s, (f b : EReal)) = ((∑ b ∈ s, f b : ℝ) : EReal) := by
  classical
  induction s using Finset.induction_on with
  | empty => simp
  | insert a s ha ih => rw [Finset.sum_insert ha, Finset.sum_insert ha, ih, EReal.coe_add]

/-- On a batch of reals the one-pass variance is the two-pass variance. -/
theorem varK_eq_varR (w : SW.Idx → EReal) (hfin : ∀ i, ∃ r : ℝ, w i = (r : EReal)) (j : Fin 2048) :
    varK w j = varR w j := by
  choose f hf using hfin
  have hS : colSum w j = ((∑ b : Fin 16384, f (ix2 b j) : ℝ) : EReal) := by
    unfold colSum; simp_rw [hf]; exact coe_sum _ _
  have hQ : colSq w j = ((∑ b : Fin 16384, f (ix2 b j) * f (ix2 b j) : ℝ) : EReal) := by
    unfold colSq; simp_rw [hf, ← EReal.coe_mul]; exact coe_sum _ _
  have hM : mean w j = (((∑ b : Fin 16384, f (ix2 b j)) / 16384 : ℝ) : EReal) := by
    unfold mean; rw [div_nB, hS, ← EReal.coe_mul, mul_one_div]
  unfold varK varR
  rw [div_nB, div_nB, hQ, hM]
  simp_rw [hf, ← EReal.coe_sub, ← EReal.coe_mul]
  rw [coe_sum, ← EReal.coe_mul, ← EReal.coe_sub]
  refine congrArg (fun x : ℝ => (x : EReal)) ?_
  have := var_identity (fun b : Fin 16384 => f (ix2 b j)) 16384
    (by rw [Fintype.card_fin]; exact Nat.cast_ofNat) (by norm_num)
  rw [mul_one_div, mul_one_div]
  exact this.symm

/-- So the kernel's value and the reference's are one, on a batch of reals. -/
theorem kernelVal_eq_refVal (w : SW.Idx → EReal) (hfin : ∀ i, ∃ r : ℝ, w i = (r : EReal)) :
    kernelVal w = refVal w := by
  unfold kernelVal refVal
  have : (fun j => Ideal.sqrt (varK w j)) = fun j => Ideal.sqrt (varR w j) :=
    funext fun j => by rw [varK_eq_varR w hfin j]
  rw [this]

end Cert.Corr

end
-- ==== Proof.Finite.lean ====
/-
  The precondition says every entry of the batch is finite: its absolute value is below plus infinity. An extended
  real whose absolute value, the larger of itself and its negative, is below plus infinity is neither infinity, so it
  is a real number.
-/
import proofs.«166574_j86096914415914_1_alg».proof.Defs
import proofs.«166574_j86096914415914_1_alg».proof.Proof.Gen.Pre_finite_inputs
import Idealize.ShloMosaic.Lib.ReduceAll
import Idealize.ShloMosaic.Lib.ValueIdx
import Idealize.ShloMosaic.PureOps.Ideal.Laws

noncomputable section

namespace Cert.Corr

open Idealize.ShloMosaic Idealize.ShloMosaic.ValueIdx

instance : Subsingleton Cert.Pre_finite_inputs.S_.Idx := ⟨fun a b => funext fun d => d.elim0⟩

/-- The pattern of plus infinity denotes the top of the extended reals. -/
theorem ofBits_inf : Ideal.ofBits .f32 0x7F800000#32 = ⊤ := by
  simp [Ideal.ofBits, Ideal.ieee]

/-- An extended real whose absolute value is below plus infinity is a real. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the batch is a real. -/
theorem real_of_pre (w : FVec Ideal Cert.Pre_finite_inputs.S16384x2048 .f32)
    (h : Cert.Pre_finite_inputs.fn (F := Ideal) w = fun _ => 1#1) (i : Cert.Pre_finite_inputs.S16384x2048.Idx) :
    ∃ r : ℝ, w i = (r : EReal) := by
  have h0 := congrFun h ix0
  dsimp only [Cert.Pre_finite_inputs.fn] at h0
  have hi := Host.reduce_andi_all _ _ _ _ _ h0 i
  have hi' : Ideal.cmp .olt (max (w i) (-(w i))) (Ideal.ofBits .f32 0x7F800000#32) = 1#1 := hi
  rw [ofBits_inf] at hi'
  refine real_of_abs_lt_top (w i) ?_
  by_contra hx
  simp [Ideal.cmp, hx] at hi'

end Cert.Corr

end
-- ==== Proof.lean ====
/-
  The certificate of the correlation regularizer's kernel against its reference.

  Both programs standardize each column of a batch of 16384 rows and 2048 columns by the column's mean and deviation
  over the rows, take per row the mean over the ordered column pairs of the products of the standardized entries, by
  ((sum z)^2 - sum z^2) / (2048 * 2047), and return the mean over the rows of its absolute value. They differ in the
  variance: the kernel accumulates the column sums and the column sums of squares over sixteen row blocks and takes
  the mean of the squares minus the square of the mean; the reference takes the mean of the squared deviations from
  the mean. On a batch of real numbers, which the precondition gives, the two are the same real, and everything after
  the variance is the same operations on the same values; the kernel's sums over row blocks and the reference's sums
  over all rows are the same sums on the extended reals, whose addition is associative and commutative.

  The frames of the two kernel programs are the generated ones; the reference's frame is its run with the result
  dropped; the ideal pass rewrote nothing.
-/
import proofs.«166574_j86096914415914_1_alg».proof.Defs
import proofs.«166574_j86096914415914_1_alg».proof.Proof.Gen.Kernel
import proofs.«166574_j86096914415914_1_alg».proof.Proof.Gen.Kernel.Frame
import proofs.«166574_j86096914415914_1_alg».proof.Proof.Gen.KernelIdeal
import proofs.«166574_j86096914415914_1_alg».proof.Proof.Gen.KernelIdeal.Frame
import proofs.«166574_j86096914415914_1_alg».proof.Proof.Gen.ReferenceIdeal
import proofs.«166574_j86096914415914_1_alg».proof.Proof.Gen.Pre_finite_inputs
import proofs.«166574_j86096914415914_1_alg».proof.Proof.KernelValue
import proofs.«166574_j86096914415914_1_alg».proof.Proof.RefRun
import proofs.«166574_j86096914415914_1_alg».proof.Proof.RefRead
import proofs.«166574_j86096914415914_1_alg».proof.Proof.Algebra
import proofs.«166574_j86096914415914_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- From memories agreeing on the batch, whose entries are reals by the precondition, the kernel ends at the
    specification's kernel value and the reference at its reference value of the same batch: one extended real. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Read.out_eq, hagree c]
  funext _
  exact (Cert.Corr.kernelVal_eq_refVal _ (Cert.Corr.real_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
